-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S8 : Shape := ⟨1, ![8]⟩
abbrev S8x64x512 : Shape := ⟨3, ![8, 64, 512]⟩
abbrev S1024x512 : Shape := ⟨2, ![1024, 512]⟩
abbrev S1024 : Shape := ⟨1, ![1024]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x128x512 .f32) (main_arg1 : IVec S8 32) (main_arg2 : FVec F S8x64x512 .f32) (main_arg3 : IVec S8 32) (main_arg4 : FVec F S1024x512 .f32) (main_arg5 : FVec F S1024 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S8x64x512 .f32 := Host.absf main_arg2
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x128x512 : Shape := ⟨3, ![8, 128, 512]⟩
abbrev S8 : Shape := ⟨1, ![8]⟩
abbrev S8x64x512 : Shape := ⟨3, ![8, 64, 512]⟩
abbrev S1024x512 : Shape := ⟨2, ![1024, 512]⟩
abbrev S1024 : Shape := ⟨1, ![1024]⟩
abbrev S8x128x64x1024 : Shape := ⟨4, ![8, 128, 64, 1024]⟩
abbrev S1x32x512 : Shape := ⟨3, ![1, 32, 512]⟩
abbrev S1x64x512 : Shape := ⟨3, ![1, 64, 512]⟩
abbrev S1x32x64x1024 : Shape := ⟨4, ![1, 32, 64, 1024]⟩
abbrev S32x512 : Shape := ⟨2, ![32, 512]⟩
abbrev S64x512 : Shape := ⟨2, ![64, 512]⟩
abbrev S32x1x512 : Shape := ⟨3, ![32, 1, 512]⟩
abbrev S32x64x512 : Shape := ⟨3, ![32, 64, 512]⟩
abbrev S2048x512 : Shape := ⟨2, ![2048, 512]⟩
abbrev S2048x1024 : Shape := ⟨2, ![2048, 1024]⟩
abbrev S32x64x1024 : Shape := ⟨3, ![32, 64, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S1024x512, .f32⟩
  | .hbm, ⟨5, _⟩ => ⟨S1024, .f32⟩
  | .hbm, ⟨6, _⟩ => ⟨S1024x512, .bf16⟩
  | .hbm, ⟨7, _⟩ => ⟨S8x128x64x1024, .f32⟩
  | .local _ .vmem, ⟨0, _⟩ => ⟨S1x32x512, .f32⟩
  | .local _ .vmem, ⟨1, _⟩ => ⟨S1x32x512, .f32⟩
  | .local _ .vmem, ⟨2, _⟩ => ⟨S1x64x512, .f32⟩
  | .local _ .vmem, ⟨3, _⟩ => ⟨S1x64x512, .f32⟩
  | .local _ .vmem, ⟨4, _⟩ => ⟨S1024x512, .bf16⟩
  | .local _ .vmem, ⟨5, _⟩ => ⟨S1024, .f32⟩
  | .local _ .vmem, ⟨6, _⟩ => ⟨S1x32x64x1024, .f32⟩
  | .local _ .vmem, ⟨7, _⟩ => ⟨S1x32x64x1024, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  shapeCasts_S32x64x512_S2048x512 : S32x64x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x1024_S32x64x1024 : S2048x1024.ShapeCasts S32x64x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S32x64x1024 : S1x1x1024.Broadcasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S8x128x512.size a
  hwx0_0 : ∀ i : grid0.Coords, EltTy.bits .f32 = 32 ∨ (Rect.block (s := S8x128x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x64x1024.size a ≤ S8x128x64x1024.size a
  hwx0_4 : ∀ i : grid0.Coords, EltTy.bits .f32 = 32 ∨ (Rect.block (s := S8x128x64x1024) S1x32x64x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x128x512 : Shape := ⟨3, ![8, 128, 512]⟩
abbrev S8 : Shape := ⟨1, ![8]⟩
abbrev S8x64x512 : Shape := ⟨3, ![8, 64, 512]⟩
abbrev S1024x512 : Shape := ⟨2, ![1024, 512]⟩
abbrev S1024 : Shape := ⟨1, ![1024]⟩
abbrev S8x128x1x512 : Shape := ⟨4, ![8, 128, 1, 512]⟩
abbrev S8x1x64x512 : Shape := ⟨4, ![8, 1, 64, 512]⟩
abbrev S8x128x64x512 : Shape := ⟨4, ![8, 128, 64, 512]⟩
abbrev S_ : Shape := ⟨0, ![]⟩
abbrev S8x128x64x1024 : Shape := ⟨4, ![8, 128, 64, 1024]⟩
abbrev S1x1x1x1024 : Shape := ⟨4, ![1, 1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S1024x512, .f32⟩
  | .hbm, ⟨5, _⟩ => ⟨S1024, .f32⟩
  | .hbm, ⟨6, _⟩ => ⟨S8x128x1x512, .f32⟩
  | .hbm, ⟨7, _⟩ => ⟨S8x1x64x512, .f32⟩
  | .hbm, ⟨8, _⟩ => ⟨S8x128x64x512, .f32⟩
  | .hbm, ⟨9, _⟩ => ⟨S8x128x64x512, .f32⟩
  | .hbm, ⟨10, _⟩ => ⟨S8x128x64x512, .f32⟩
  | .hbm, ⟨11, _⟩ => ⟨S_, .f32⟩
  | .hbm, ⟨12, _⟩ => ⟨S8x128x64x512, .f32⟩
  | .hbm, ⟨13, _⟩ => ⟨S8x128x64x512, .f32⟩
  | .hbm, ⟨14, _⟩ => ⟨S8x128x64x1024, .f32⟩
  | .hbm, ⟨15, _⟩ => ⟨S1x1x1x1024, .f32⟩
  | .hbm, ⟨16, _⟩ => ⟨S8x128x64x1024, .f32⟩
  | .hbm, ⟨17, _⟩ => ⟨S8x128x64x1024, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S8x128x512_S8x128x1x512_0_1_3 : S8x128x512.BroadcastsInDim S8x128x1x512 (![0, 1, 3] : Fin 3 → Fin S8x128x1x512.rank)
  bcast_S8x64x512_S8x1x64x512_0_2_3 : S8x64x512.BroadcastsInDim S8x1x64x512 (![0, 2, 3] : Fin 3 → Fin S8x1x64x512.rank)
  bcast_S8x128x1x512_S8x128x64x512_0_1_2_3 : S8x128x1x512.BroadcastsInDim S8x128x64x512 (![0, 1, 2, 3] : Fin 4 → Fin S8x128x64x512.rank)
  bcast_S8x1x64x512_S8x128x64x512_0_1_2_3 : S8x1x64x512.BroadcastsInDim S8x128x64x512 (![0, 1, 2, 3] : Fin 4 → Fin S8x128x64x512.rank)
  bcast_S_S8x128x64x512 : S_.BroadcastsInDim S8x128x64x512 (![] : Fin 0 → Fin S8x128x64x512.rank)
  bcast_S1024_S1x1x1x1024_3 : S1024.BroadcastsInDim S1x1x1x1024 (![3] : Fin 1 → Fin S1x1x1x1024.rank)
  bcast_S1x1x1x1024_S8x128x64x1024_0_1_2_3 : S1x1x1x1024.BroadcastsInDim S8x128x64x1024 (![0, 1, 2, 3] : Fin 4 → Fin S8x128x64x1024.rank)
  dot_S8x128x64x512_S1024x512_S8x128x64x1024_3_1_012_0_n_n_wf : DotDims.WF S8x128x64x512 S1024x512 S8x128x64x1024 [3] [1] [0, 1, 2] [0] [] []

variable [Facts₀]

def dot_S8x128x64x512_S1024x512_S8x128x64x1024_3_1_012_0_n_n : DotDims S8x128x64x512 S1024x512 S8x128x64x1024 where
  lhsContracting := [3]
  rhsContracting := [1]
  lhsNonContracting := [0, 1, 2]
  rhsNonContracting := [0]
  lhsBatch := []
  rhsBatch := []
  wf := dot_S8x128x64x512_S1024x512_S8x128x64x1024_3_1_012_0_n_n_wf

class Facts : Prop extends Facts₀ where

variable [Facts]
-- ==== Proof.JoinerLogits.lean ====
/-
  The joiner's logits as ONE function of its four float arrays, index by index, on the extended reals.

  For a batch entry `b`, a source position `t`, a target position `u` and a vocabulary entry `v`,

      logits[b, t, u, v] = (Σ_d max(src[b, t, d] + tgt[b, u, d], 0) · w[v, d]) + bias[v]:

  the source and target encodings are added with the source broadcast along the target axis and the
  target along the source axis, the sum is clamped below at zero, the clamped row is contracted with
  row `v` of the weight over the 512 features, and the bias of `v` is added after the contraction.
  Nothing here depends on a program: both sides of the certificate are shown equal to this function.
-/
import Idealize.ShloMosaic.PureOps.Ideal
import Idealize.ShloMosaic.Lib.ValueIdx

noncomputable section

open scoped BigOperators

namespace Cert.Joiner

open Idealize.ShloMosaic Idealize.ShloMosaic.ValueIdx

/-- One clamped feature of the joined encodings: `max(src[b, t, d] + tgt[b, u, d], 0)`, the zero being the
    float zero both programs write. -/
def joined (src : FVec Ideal ⟨3, ![8, 128, 512]⟩ .f32) (tgt : FVec Ideal ⟨3, ![8, 64, 512]⟩ .f32)
    (b : Fin 8) (t : Fin 128) (u : Fin 64) (d : Fin 512) : EReal :=
  max (src (ix3 b t d) + tgt (ix3 b u d)) (Ideal.ofBits .f32 0x00000000#32)

/-- The logits: the clamped joined row contracted with the weight's row over the features, plus the bias. -/
def logits (src : FVec Ideal ⟨3, ![8, 128, 512]⟩ .f32) (tgt : FVec Ideal ⟨3, ![8, 64, 512]⟩ .f32)
    (w : FVec Ideal ⟨2, ![1024, 512]⟩ .f32) (bias : FVec Ideal ⟨1, ![1024]⟩ .f32) :
    FVec Ideal ⟨4, ![8, 128, 64, 1024]⟩ .f32 :=
  fun i => (∑ d : Fin 512, joined src tgt (i 0) (i 1) (i 2) d * w (ix2 (i 3) d)) + bias (ix1 (i 3))

end Cert.Joiner

end
-- ==== Proof.RefLogits.lean ====
/-
  The reference computes the joiner's logits.

  The reference broadcasts the source encodings along a new target axis and the target encodings along
  a new source axis, adds them, clamps the sum below at zero, contracts the feature axis with the
  weight's rows (`dot_general`, contracting axis 3 with axis 1), and adds the bias broadcast over
  batch, source and target. Read at an index (b, t, u, v) each broadcast reads ONE element of its
  operand: the source at (b, t, d), the target at (b, u, d), the weight at (v, d), the bias at v. With
  those four index equations the reference's last stage is `Cert.Joiner.logits` term for term.
-/
import proofs.«175680_j67302137528860_1_alg».proof.Proof.Gen.ReferenceIdeal.Read
import proofs.«175680_j67302137528860_1_alg».proof.Proof.JoinerLogits

noncomputable section

open scoped BigOperators

namespace Cert.ReferenceIdeal.RefLogits

open Cert.ReferenceIdeal Cert.ReferenceIdeal.Read Idealize.ShloMosaic Idealize.ShloMosaic.ValueIdx

/-- Through the two broadcasts of the source, feature `k` of the joined row at (b, t, u) reads the source at (b, t, k). -/
theorem src_at (i : S8x128x64x1024.Idx) (k : Fin 512) :
    idx_main_v0 (idx_main_v2 (lidx_main_v6 i k)) = ix3 (i 0) (i 1) k :=
  funext fun a => match a with
    | ⟨0, _⟩ => rfl
    | ⟨1, _⟩ => rfl
    | ⟨2, _⟩ => rfl

/-- Through the two broadcasts of the target, it reads the target at (b, u, k). -/
theorem tgt_at (i : S8x128x64x1024.Idx) (k : Fin 512) :
    idx_main_v1 (idx_main_v3 (lidx_main_v6 i k)) = ix3 (i 0) (i 2) k :=
  funext fun a => match a with
    | ⟨0, _⟩ => rfl
    | ⟨1, _⟩ => rfl
    | ⟨2, _⟩ => rfl

/-- The contraction's right operand at (b, t, u, v) and feature `k` is the weight at (v, k). -/
theorem w_at (i : S8x128x64x1024.Idx) (k : Fin 512) : ridx_main_v6 i k = ix2 (i 3) k :=
  funext fun a => match a with
    | ⟨0, _⟩ => rfl
    | ⟨1, _⟩ => rfl

/-- Through its two broadcasts the bias is read at v. -/
theorem bias_at (i : S8x128x64x1024.Idx) : idx_main_v7 (idx_main_v8 i) = ix1 (i 3) :=
  funext fun a => match a with
    | ⟨0, _⟩ => rfl

/-- The reference's result stage, on the extended reals, is the logits function of its four float arguments. -/
theorem ref_eq (x0 : (⟨S8x128x512, .f32⟩ : BufTy).Contents (Elt Ideal)) (x2 : (⟨S8x64x512, .f32⟩ : BufTy).Contents (Elt Ideal))
    (x4 : (⟨S1024x512, .f32⟩ : BufTy).Contents (Elt Ideal)) (x5 : (⟨S1024, .f32⟩ : BufTy).Contents (Elt Ideal)) :
    val_main_v9 (F := Ideal) x0 x2 x4 x5 = Cert.Joiner.logits x0 x2 x4 x5 := by
  funext i
  rw [val_main_v9_apply, val_main_v6_apply, val_main_v8_apply, val_main_v7_apply, bias_at]
  unfold Cert.Joiner.logits
  show (∑ k : Fin 512, _) + _ = (∑ d : Fin 512, _) + _
  congr 1
  refine Finset.sum_congr rfl fun k _ => ?_
  rw [val_main_v5_apply, val_main_v4_apply, val_main_v2_apply, val_main_v0_apply, val_main_v3_apply, val_main_v1_apply,
    val_main_call0_v0_apply, val_main_call0_cst_apply, src_at, tgt_at, w_at]
  rfl

end Cert.ReferenceIdeal.RefLogits

end
-- ==== Proof.LibLayoutRank3.lean ====
/-
  Layout operations on arrays of three axes, read at an index given by its coordinates, over any extents.

  A shape cast keeps an element's row-major position, and a broadcast reads its operand at the same
  coordinates with `0` on the operand's unit axes. For indices written by coordinates that is, for each
  operation below, one element of the operand:
  * a matrix `[a, b]` given a middle unit axis, `[a, 1, b]`: at (i, 0, j) the matrix at (i, j);
  * `[a, b, c]` with its two leading axes merged, `[n, c]` (`n = a·b`): row `i·b + j`, column `k` is (i, j, k);
  * `[n, c]` with its leading axis split, `[a, b, c]`: (i, j, k) is row `i·b + j`, column `k`;
  * a vector `[a]` given two leading unit axes, `[1, 1, a]`: at (0, 0, k) the vector at k;
  * `[a, 1, c]` broadcast along the middle axis to `[a, b, c]`: at (i, j, k) the operand at (i, 0, k);
  * `[1, b, c]` broadcast along the leading axis to `[a, b, c]`: at (i, j, k) the operand at (0, j, k);
  * `[1, 1, c]` broadcast along both leading axes to `[a, b, c]`: at (i, j, k) the operand at (0, 0, k).
-/
import Idealize.ShloMosaic.Lib.Pipeline.Value
import Idealize.ShloMosaic.Lib.ValueIdx

namespace Cert.LibLayoutRank3

open Idealize.ShloMosaic Idealize.ShloMosaic.ValueIdx

variable {α : Type}

/-- A matrix `[a, b]` cast to `[a, 1, b]` reads, at `(i, z, j)`, the matrix at `(i, j)`: the unit axis adds
    nothing to the row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (z : Fin 1) (j : Fin b) :
    shapeCast ⟨3, ![a, 1, b]⟩ x h (ix3 i z j) = x (ix2 i j) :=
  shapeCast_apply x h _ _ (by
    have hz : z.val = 0 := by omega
    rw [Shape.rowMajor_val_two, Shape.rowMajor_val_three]
    show i.val * b + j.val = (i.val * 1 + z.val) * b + j.val
    rw [hz, Nat.mul_one, Nat.add_zero])

/-- `[a, b, c]` cast to `[n, c]` reads, at row `r = i·b + j` and column `k`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- `[n, c]` cast to `[a, b, c]` reads, at `(i, j, k)`, the operand at row `r = i·b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-- A vector `[a]` cast to `[1, 1, a]` reads, at `(y, z, k)`, the vector at `k`. -/
theorem shapeCast_a_11a_apply {a : ℕ} (x : (⟨1, ![a]⟩ : Shape).Idx → α)
    (h : (⟨1, ![a]⟩ : Shape).ShapeCasts ⟨3, ![1, 1, a]⟩) (y z : Fin 1) (k : Fin a) :
    shapeCast ⟨3, ![1, 1, a]⟩ x h (ix3 y z k) = x (ix1 k) :=
  shapeCast_apply x h _ _ (by
    have hy : y.val = 0 := by omega
    have hz : z.val = 0 := by omega
    rw [Shape.rowMajor_val_one, Shape.rowMajor_val_three]
    show k.val = (y.val * 1 + z.val) * a + k.val
    rw [hy, hz, Nat.zero_mul, Nat.zero_add])

/-- `[a, 1, c]` broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[1, b, c]` broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- `[1, 1, c]` broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibLayoutRank3
-- ==== Proof.BlockLogits.lean ====
/-
  What the kernel body stores, read at one index of its block.

  At a grid point the body holds a source block `x0` of 32 positions, a target block `x2` of 64 positions,
  the whole weight `x13` and the whole bias `x17`. It lays the source block out along a middle unit axis
  and the target block along a leading one, broadcasts both to [32, 64, 512], adds, clamps below at zero,
  merges the two position axes into 2048 rows, multiplies the rows with the weight's rows over the 512
  features into a zero accumulator, splits the rows back into (source, target) positions, and adds the
  bias broadcast over both. At (0, t, u, v) that is

      (Σ_d max(x0[0, t, d] + x2[0, u, d], 0) · x13[v, d]) + x17[v]:

  row t·64 + u of the merged matrix is the pair (t, u), each reshape keeps the row-major position, each
  broadcast reads its operand at `0` on the unit axis, the change of float format is the identity on the
  extended reals, and the product into the zero accumulator is the plain sum over the feature.
-/
import proofs.«175680_j67302137528860_1_alg».proof.Proof.Gen.KernelIdeal.Skeleton
import proofs.«175680_j67302137528860_1_alg».proof.Proof.LibLayoutRank3
import Idealize.ShloMosaic.Lib.ValueLayout
import Idealize.ShloMosaic.PureOps.Ideal.Laws

noncomputable section

open scoped BigOperators

namespace Cert.KernelIdeal.BlockLogits

open Cert.KernelIdeal Cert.KernelIdeal.Gen Idealize.ShloMosaic Idealize.ShloMosaic.ValueIdx Cert.LibLayoutRank3

/-! ## The product's operand indices: rows of the merged matrix against rows of the weight, over the feature -/

/-- The left operand's row is the output's row. -/
theorem lhs_row (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl

/-- The left operand's column is the contracted feature. -/
theorem lhs_feat (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q

/-- The right operand's row is the output's column: the weight is contracted along its second axis. -/
theorem rhs_row (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl

/-- The right operand's column is the contracted feature. -/
theorem rhs_feat (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- Row `t·64 + u` of the merged [2048, ·] matrices: the pair of a source position and a target position. -/
abbrev row (t : Fin 32) (u : Fin 64) : Fin 2048 := ⟨t.val * 64 + u.val, by have := t.isLt; have := u.isLt; omega⟩

/-! ## The payload at an index -/

/-- The stored block at (z, t, u, v): the clamped sums of source row t and target row u contracted with the
    weight's row v over the features, plus the bias at v. -/
theorem pay_apply (x0 : Vec Ideal S1x32x512 .f32) (x2 : Vec Ideal S1x64x512 .f32) (x13 : Vec Ideal S1024x512 .bf16)
    (x17 : Vec Ideal S1024 .f32) (z : Fin 1) (t : Fin 32) (u : Fin 64) (v : Fin 1024) :
    k0_pay1 (F := Ideal) x0 x2 x13 x17 (ix4 z t u v)
      = (∑ d : Fin 512, max (x0 (ix3 (0 : Fin 1) t d) + x2 (ix3 (0 : Fin 1) u d)) (Ideal.ofBits .f32 0x00000000#32) * x13 (ix2 v d))
        + x17 (ix1 v) := by
  unfold k0_pay1
  rw [shapeCast_abc_1abc_apply, addf_apply, shapeCast_nc_abc_apply _ _ t u v (row t u) rfl,
    broadcastTo_11c_abc_apply, shapeCast_a_11a_apply]
  simp only [matmul]
  rw [Ideal.matmul_constant_zero_apply, ← Equiv.sum_comp (contrEquiv1 dot_S2048x512_S1024x512_S2048x1024_1_1_0_0_n_n 512 rfl rfl).symm]
  congr 1
  refine Finset.sum_congr rfl fun d _ => ?_
  have hd := contrEquiv1_symm_val dot_S2048x512_S1024x512_S2048x1024_1_1_0_0_n_n 512 rfl rfl d
  have el : dot_S2048x512_S1024x512_S2048x1024_1_1_0_0_n_n.lhsIdx (ix2 (row t u) v) ((contrEquiv1 dot_S2048x512_S1024x512_S2048x1024_1_1_0_0_n_n 512 rfl rfl).symm d) = ix2 (row t u) d :=
    funext fun a => Fin.ext (by
      match a with
      | ⟨0, _⟩ => exact lhs_row _ _
      | ⟨1, _⟩ => exact (lhs_feat _ _).trans hd)
  have er : dot_S2048x512_S1024x512_S2048x1024_1_1_0_0_n_n.rhsIdx (ix2 (row t u) v) ((contrEquiv1 dot_S2048x512_S1024x512_S2048x1024_1_1_0_0_n_n 512 rfl rfl).symm d) = ix2 v d :=
    funext fun a => Fin.ext (by
      match a with
      | ⟨0, _⟩ => exact rhs_row _ _
      | ⟨1, _⟩ => exact (rhs_feat _ _).trans hd)
  rw [el, er, shapeCast_abc_nc_apply _ _ t u d (row t u) rfl, truncf_apply, maximumf_apply, addf_apply, broadcast_apply,
    broadcastTo_a1c_abc_apply, shapeCast_ab_a1b_apply, shapeCast_1ab_ab_apply,
    broadcastTo_1bc_abc_apply, shapeCast_ab_1ab_apply, shapeCast_1ab_ab_apply, shapeCast_self]
  rfl

end Cert.KernelIdeal.BlockLogits

end
-- ==== Proof.ArrayLogits.lean ====
/-
  From the blocks the kernel writes back to the whole result array.

  The grid has 8 × 4 points, a batch entry `b` and a tile `q` of 32 source positions. At a point the
  source window holds rows 32q … 32q + 31 of batch entry b, the target window all 64 rows of batch entry
  b, the weight window the whole weight (as the host's change of float format left it, which is the
  identity on the extended reals) and the bias window the whole bias; the output window's block is
  entry b, source positions 32q … 32q + 31, all target positions and all vocabulary entries of the
  result. So what a point writes back is its block of `Cert.Joiner.logits` of the argument arrays: the
  stored value at (0, p, u, v) is the logit at (b, 32q + p, u, v). Every index of the result lies in
  the block of the point (b, q) = (i₀, i₁ / 32), so the array ends holding the logits everywhere.
-/
import proofs.«175680_j67302137528860_1_alg».proof.Proof.Gen.KernelIdeal.Value
import proofs.«175680_j67302137528860_1_alg».proof.Proof.JoinerLogits
import proofs.«175680_j67302137528860_1_alg».proof.Proof.BlockLogits
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.ArrayLogits

open Cert.KernelIdeal Cert.KernelIdeal.Gen Cert.KernelIdeal.Value

variable (m : (ℓ : Loc nD τ sig) → Buf (Elt Ideal) ℓ) (ρ : Dev nD → PrngReg)

/-! ## Where each window's block sits -/

/-- The block indices over the 32 grid points: the source window moves with the output's batch entry and
    position tile, the target window with its batch entry, the weight and bias windows stay, and the output's
    last two block indices are zero, its first two a batch entry and a tile. -/
theorem blocks_at : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (2 : Fin 4) = 0 ∧ win0_4.index t (3 : Fin 4) = 0
    ∧ win0_4.index t (0 : Fin 4) < 8 ∧ win0_4.index t (1 : Fin 4) < 4 :=
  (by decide +kernel : ∀ t : Fin grid0.N, _)

/-- Every (batch entry, tile) pair is some point's. -/
theorem point_of : ∀ (b : Fin 8) (q : Fin 4), ∃ t : Fin cfg0.N,
    win0_4.index t (0 : Fin 4) = b.val ∧ win0_4.index t (1 : Fin 4) = q.val :=
  (by decide +kernel : ∀ (b : Fin 8) (q : Fin 4), ∃ t : Fin grid0.N,
    win0_4.index t (0 : Fin 4) = b.val ∧ win0_4.index t (1 : Fin 4) = q.val)

/-! ## The input blocks, typed, and each read as its argument array at an index -/

/-- The four input blocks at a point, at their literal types. -/
abbrev srcBlk (c : Dev nD) (t : Fin cfg0.N) : Vec Ideal S1x32x512 .f32 := iblk m c 0 t
abbrev tgtBlk (c : Dev nD) (t : Fin cfg0.N) : Vec Ideal S1x64x512 .f32 := iblk m c 1 t
abbrev wBlk (c : Dev nD) (t : Fin cfg0.N) : Vec Ideal S1024x512 .bf16 := iblk m c 2 t
abbrev biasBlk (c : Dev nD) (t : Fin cfg0.N) : Vec Ideal S1024 .f32 := iblk m c 3 t

/-- The weight as the region finds it: the host's change of float format of the weight argument, which on the
    extended reals changes nothing. -/
theorem weight_entry (c : Dev nD) :
    (V m c main_v0 : S1024x512.Idx → EReal) = (m ((c : Thread nD τ).loc main_arg4) : S1024x512.Idx → EReal) := by
  dsimp only [V, hostOps0]
  after_results
  rfl

/-- The source block at (0, p, d) is the source argument at (b, 32q + p, d). -/
theorem src_blk (c : Dev nD) (t : Fin cfg0.N) (y : S1x32x512.Idx) (k : S8x128x512.Idx)
    (hk0 : (k 0).val = win0_4.index t (0 : Fin 4)) (hk1 : (k 1).val = win0_4.index t (1 : Fin 4) * 32 + (y 1).val)
    (hk2 : (k 2).val = (y 2).val) :
    srcBlk m c t y = (m ((c : Thread nD τ).loc main_arg0) : S8x128x512.Idx → EReal) k := by
  obtain ⟨e0, e1, e2, -⟩ := blocks_at t
  unfold srcBlk iblk
  rw [View.read_apply]
  show V m c main_arg0 _ = _
  rw [V_main_arg0]
  congr 1
  funext a
  apply Fin.ext
  match a with
  | ⟨0, _⟩ => show win0_0.index t (0 : Fin 3) * 1 + 1 * (y 0).val = (k 0).val; have hy : (y 0).val < 1 := (y 0).isLt; omega
  | ⟨1, _⟩ => show win0_0.index t (1 : Fin 3) * 32 + 1 * (y 1).val = (k 1).val; omega
  | ⟨2, _⟩ => show win0_0.index t (2 : Fin 3) * 512 + 1 * (y 2).val = (k 2).val; omega

/-- The target block at (0, u, d) is the target argument at (b, u, d). -/
theorem tgt_blk (c : Dev nD) (t : Fin cfg0.N) (y : S1x64x512.Idx) (k : S8x64x512.Idx)
    (hk0 : (k 0).val = win0_4.index t (0 : Fin 4)) (hk1 : (k 1).val = (y 1).val) (hk2 : (k 2).val = (y 2).val) :
    tgtBlk m c t y = (m ((c : Thread nD τ).loc main_arg2) : S8x64x512.Idx → EReal) k := by
  obtain ⟨-, -, -, e0, e1, e2, -⟩ := blocks_at t
  unfold tgtBlk iblk
  rw [View.read_apply]
  show V m c main_arg2 _ = _
  rw [V_main_arg2]
  congr 1
  funext a
  apply Fin.ext
  match a with
  | ⟨0, _⟩ => show win0_1.index t (0 : Fin 3) * 1 + 1 * (y 0).val = (k 0).val; have hy : (y 0).val < 1 := (y 0).isLt; omega
  | ⟨1, _⟩ => show win0_1.index t (1 : Fin 3) * 64 + 1 * (y 1).val = (k 1).val; omega
  | ⟨2, _⟩ => show win0_1.index t (2 : Fin 3) * 512 + 1 * (y 2).val = (k 2).val; omega

/-- The weight block is the weight argument, entry for entry. -/
theorem w_blk (c : Dev nD) (t : Fin cfg0.N) (y : S1024x512.Idx) (k : S1024x512.Idx)
    (hk0 : (k 0).val = (y 0).val) (hk1 : (k 1).val = (y 1).val) :
    wBlk m c t y = (m ((c : Thread nD τ).loc main_arg4) : S1024x512.Idx → EReal) k := by
  obtain ⟨-, -, -, -, -, -, e0, e1, -⟩ := blocks_at t
  unfold wBlk iblk
  rw [View.read_apply]
  show (V m c main_v0 : S1024x512.Idx → EReal) _ = _
  rw [weight_entry]
  congr 1
  funext a
  apply Fin.ext
  match a with
  | ⟨0, _⟩ => show win0_2.index t (0 : Fin 2) * 1024 + 1 * (y 0).val = (k 0).val; omega
  | ⟨1, _⟩ => show win0_2.index t (1 : Fin 2) * 512 + 1 * (y 1).val = (k 1).val; omega

/-- The bias block is the bias argument, entry for entry. -/
theorem bias_blk (c : Dev nD) (t : Fin cfg0.N) (y : S1024.Idx) (k : S1024.Idx) (hk0 : (k 0).val = (y 0).val) :
    biasBlk m c t y = (m ((c : Thread nD τ).loc main_arg5) : S1024.Idx → EReal) k := by
  obtain ⟨-, -, -, -, -, -, -, -, e0, -⟩ := blocks_at t
  unfold biasBlk iblk
  rw [View.read_apply]
  show V m c main_arg5 _ = _
  rw [V_main_arg5]
  congr 1
  funext a
  apply Fin.ext
  match a with
  | ⟨0, _⟩ => show win0_3.index t (0 : Fin 1) * 1024 + 1 * (y 0).val = (k 0).val; omega

/-! ## The result array -/

/-- What the result array ends holding on core `c`: the logits of the four float arguments as launched. -/
abbrev result (c : Dev nD) : Buf (Elt Ideal) ((c : Thread nD τ).loc main_v1) :=
  Cert.Joiner.logits (m ((c : Thread nD τ).loc main_arg0)) (m ((c : Thread nD τ).loc main_arg2)) (m ((c : Thread nD τ).loc main_arg4)) (m ((c : Thread nD τ).loc main_arg5))

/-- The value a point stores at (0, p, u, v) of its block is the logit at (b, 32q + p, u, v). -/
theorem point_apply (c : Dev nD) (t : Fin cfg0.N) (j : S1x32x64x1024.Idx) (i : S8x128x64x1024.Idx)
    (hi0 : (i 0).val = win0_4.index t (0 : Fin 4)) (hi1 : (i 1).val = win0_4.index t (1 : Fin 4) * 32 + (j 1).val)
    (hi2 : (i 2).val = (j 2).val) (hi3 : (i 3).val = (j 3).val) :
    k0_pay1 (F := Ideal) (srcBlk m c t) (tgtBlk m c t) (wBlk m c t) (biasBlk m c t) j
      = (result m c : S8x128x64x1024.Idx → EReal) i := by
  obtain ⟨z, p, u, v, rfl⟩ : ∃ (z : Fin 1) (p : Fin 32) (u : Fin 64) (v : Fin 1024), j = ix4 z p u v :=
    ⟨j 0, j 1, j 2, j 3, eq_ix4 j⟩
  refine (Cert.KernelIdeal.BlockLogits.pay_apply (srcBlk m c t) (tgtBlk m c t) (wBlk m c t) (biasBlk m c t) z p u v).trans ?_
  show _ = (∑ d : Fin 512, Cert.Joiner.joined _ _ (i 0) (i 1) (i 2) d * _) + _
  congr 1
  · refine Finset.sum_congr rfl fun d _ => ?_
    unfold Cert.Joiner.joined
    rw [src_blk m c t (ix3 (0 : Fin 1) p d) (ix3 (i 0) (i 1) d) hi0 hi1 rfl,
      tgt_blk m c t (ix3 (0 : Fin 1) u d) (ix3 (i 0) (i 2) d) hi0 hi2 rfl,
      w_blk m c t (ix2 v d) (ix2 (i 3) d) hi3 rfl]
  · exact bias_blk m c t (ix1 v) (ix1 (i 3)) hi3

/-! ## What a point writes back, the cover, the array, the run -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What point `t` writes back is block `t` of the logits. -/
theorem flushed_eq (c : Dev nD) (t : Fin cfg0.N) :
    (dats m 0 c).flushed 4 t = ((cfg0.win 4).blk t).view.read (Elt Ideal) (result m c) := by
  obtain ⟨-, -, -, -, -, -, -, -, -, e2, e3, -⟩ := blocks_at t
  rw [Value.flushed4]
  unfold out0_4
  rw [View.canon_unit_zero hz4]
  simp only [View.ld_unit_zero (S := S1x32x512) hz3, View.ld_unit_zero (S := S1x64x512) hz3,
    View.ld_unit_zero (S := S1024x512) hz2, View.ld_unit_zero (S := S1024) hz1]
  funext j
  rw [View.read_apply]
  refine point_apply m c t j (((cfg0.win 4).blk t).view.emb j) ?_ ?_ ?_ ?_
  · show win0_4.index t (0 : Fin 4) * 1 + 1 * (j 0).val = win0_4.index t (0 : Fin 4); have hj : (j 0).val < 1 := (j 0).isLt; omega
  · show win0_4.index t (1 : Fin 4) * 32 + 1 * (j 1).val = win0_4.index t (1 : Fin 4) * 32 + (j 1).val; omega
  · show win0_4.index t (2 : Fin 4) * 64 + 1 * (j 2).val = (j 2).val; omega
  · show win0_4.index t (3 : Fin 4) * 1024 + 1 * (j 3).val = (j 3).val; omega

/-- An index of the result is in point `t`'s block iff each coordinate is in the block's range on its axis. -/
theorem mem_blk (t : Fin cfg0.N) (i : S8x128x64x1024.Idx) :
    i ∈ ((cfg0.win 4).blk t).view.set ↔ ∀ a : Fin 4, win0_4.index t a * S1x32x64x1024.size a ≤ (i a).val
      ∧ (i a).val < win0_4.index t a * S1x32x64x1024.size a + S1x32x64x1024.size a := by
  show i ∈ ((View.whole main_v1).slice (win0_4.rect t)).set ↔ _
  rw [View.set_slice_whole, Rect.mem_set_unit]
  exact Iff.rfl

/-- Every index of the result is in the block of the point of its batch entry and its position's tile. -/
theorem covered (i : S8x128x64x1024.Idx) :
    ∃ t : Fin cfg0.N, (cfg0.win 4).flush t = true ∧ i ∈ ((cfg0.win 4).blk t).view.set := by
  have h0 : (i 0).val < 8 := (i 0).isLt
  have h1 : (i 1).val < 128 := (i 1).isLt
  have h2 : (i 2).val < 64 := (i 2).isLt
  have h3 : (i 3).val < 1024 := (i 3).isLt
  obtain ⟨t, q0, q1⟩ := point_of ⟨(i 0).val, h0⟩ ⟨(i 1).val / 32, by omega⟩
  obtain ⟨-, -, -, -, -, -, -, -, -, e2, e3, -⟩ := blocks_at t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1
              simp only [] at q0; omega
  | ⟨1, _⟩ => show win0_4.index t (1 : Fin 4) * 32 ≤ (i 1).val ∧ (i 1).val < win0_4.index t (1 : Fin 4) * 32 + 32
              simp only [] at q1; omega
  | ⟨2, _⟩ => show win0_4.index t (2 : Fin 4) * 64 ≤ (i 2).val ∧ (i 2).val < win0_4.index t (2 : Fin 4) * 64 + 64; omega
  | ⟨3, _⟩ => show win0_4.index t (3 : Fin 4) * 1024 ≤ (i 3).val ∧ (i 3).val < win0_4.index t (3 : Fin 4) * 1024 + 1024; omega

/-- The result array after the run is the logits of the arguments. -/
theorem final (c : Dev nD) : (dats m 0 c).arrAt 4 cfg0.N = result m c :=
  (dats m 0 c).arrAt_eq_of_cover 4 (result m c) (fun t _ => flushed_eq m c t) covered

/-- The kernel's run, read: the result array at the logits of the arguments, every argument unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KernelIdeal.ArrayLogits

end
-- ==== Proof.lean ====
/-
  The joiner kernel against its reference, on the extended reals.

  Both programs compute, for a batch entry b, a source position t, a target position u and a vocabulary
  entry v,

      logits[b, t, u, v] = (Σ_d max(src[b, t, d] + tgt[b, u, d], 0) · w[v, d]) + bias[v]

  and pass the two length arrays through unchanged. The kernel walks a grid of 8 batch entries by 4 tiles
  of 32 source positions; at each point it adds the tile's source rows to the entry's target rows, clamps
  at zero, multiplies the 2048 joined rows with the weight's rows into a zero accumulator and adds the
  bias; its changes of float format are the identity on the extended reals and a product into a zero
  accumulator is the plain sum, so each point writes back its block of the logits, and the blocks tile the
  result. The reference broadcasts, adds, clamps, contracts the feature axis and adds the bias on whole
  arrays. The two sums have the same terms in the same order and the bias is added after the sum on both
  sides, so no finiteness of the inputs is used: the precondition is never opened.

  The three frames: each program terminates without a fault and leaves its arguments unchanged. The
  idealized kernel is the kernel's own text read on the extended reals (nothing was rewritten), so the
  idealization claim has no conjunct.
-/
import proofs.«175680_j67302137528860_1_alg».proof.Defs
import proofs.«175680_j67302137528860_1_alg».proof.Proof.Gen.Kernel
import proofs.«175680_j67302137528860_1_alg».proof.Proof.Gen.Kernel.Skeleton
import proofs.«175680_j67302137528860_1_alg».proof.Proof.Gen.Kernel.Launch
import proofs.«175680_j67302137528860_1_alg».proof.Proof.Gen.Kernel.Points
import proofs.«175680_j67302137528860_1_alg».proof.Proof.Gen.Kernel.Frame
import proofs.«175680_j67302137528860_1_alg».proof.Proof.Gen.KernelIdeal
import proofs.«175680_j67302137528860_1_alg».proof.Proof.Gen.KernelIdeal.Skeleton
import proofs.«175680_j67302137528860_1_alg».proof.Proof.Gen.KernelIdeal.Launch
import proofs.«175680_j67302137528860_1_alg».proof.Proof.Gen.KernelIdeal.Points
import proofs.«175680_j67302137528860_1_alg».proof.Proof.Gen.KernelIdeal.Frame
import proofs.«175680_j67302137528860_1_alg».proof.Proof.Gen.ReferenceIdeal
import proofs.«175680_j67302137528860_1_alg».proof.Proof.Gen.Pre_finite_inputs
import proofs.«175680_j67302137528860_1_alg».proof.Proof.Gen.KernelIdeal.Value
import proofs.«175680_j67302137528860_1_alg».proof.Proof.Gen.ReferenceIdeal.Run
import proofs.«175680_j67302137528860_1_alg».proof.Proof.Gen.ReferenceIdeal.Read
import proofs.«175680_j67302137528860_1_alg».proof.Proof.JoinerLogits
import proofs.«175680_j67302137528860_1_alg».proof.Proof.RefLogits
import proofs.«175680_j67302137528860_1_alg».proof.Proof.BlockLogits
import proofs.«175680_j67302137528860_1_alg».proof.Proof.ArrayLogits
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference's run ends with every argument as launched: its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the six arguments both programs end with the logits of the four float
    arguments in their result array and the two length arrays as launched: the kernel's array is the logits
    block by block, the reference's last stage is the logits term for term. -/
theorem algebraic : Cert.algebraic_KernelIdeal_ReferenceIdeal := by
  intro m ρ m' ρ' _ hagree
  refine ⟨fun c => Cert.KernelIdeal.ArrayLogits.result m c,
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg3), ?_, ?_⟩
  · exact (θ_run Cert.KernelIdeal.defs _ _).mono
      (fun _ h c => ⟨(h c).1, (h c).2.2.1, (h c).2.2.2.2.1, (h c).2⟩) (Cert.KernelIdeal.ArrayLogits.run m ρ)
  · refine (θ_run Cert.ReferenceIdeal.defs _ _).mono (fun _ h c => ?_) (Cert.ReferenceIdeal.Value.run (F := Ideal) m' ρ')
    obtain ⟨a0, a1, a2, a3, a4, a5⟩ := hagree c
    refine ⟨?_, (h c).2.1.trans a1, (h c).2.2.1.trans a3, (h c).2.2.2⟩
    rw [(h c).1, Cert.ReferenceIdeal.Read.val_main_v9_eq, Cert.ReferenceIdeal.RefLogits.ref_eq, a0, a2, a4, a5]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
